-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32768x1024 : Shape := ⟨2, ![32768, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32768x1024, .f32⟩
  | .hbm, ⟨3, _⟩ => ⟨S32768x1024, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32x1x1024x1024_S32768x1024 : S32x1x1024x1024.ShapeCasts S32768x1024
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1024x1024 : Shape := ⟨3, ![32, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S_, .f32⟩
  | .hbm, ⟨4, _⟩ => ⟨S32x1x1024x1024, .f32⟩
  | .hbm, ⟨5, _⟩ => ⟨S32x1x1024x1024, .f32⟩
  | .hbm, ⟨6, _⟩ => ⟨S32x1x1024x1024, .f32⟩
  | .hbm, ⟨7, _⟩ => ⟨S32x1x1024x1024, .f32⟩
  | .hbm, ⟨8, _⟩ => ⟨S_, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S_, .f32⟩
  | .hbm, ⟨13, _⟩ => ⟨S32x1x1024x1024, .f32⟩
  | .hbm, ⟨14, _⟩ => ⟨S32x1x1024x1024, .f32⟩
  | .hbm, ⟨15, _⟩ => ⟨S32x1x1024x1024, .f32⟩
  | .hbm, ⟨16, _⟩ => ⟨S32x1x1024x1024, .f32⟩
  | .hbm, ⟨17, _⟩ => ⟨S32x1x1024x1024, .f32⟩
  | .hbm, ⟨18, _⟩ => ⟨S_, .f32⟩
  | .hbm, ⟨19, _⟩ => ⟨S32x1024x1024, .f32⟩
  | .hbm, ⟨20, _⟩ => ⟨S_, .f32⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  reducesTo_S32x1x1024x1024_S32x1024x1024_d1 : S32x1x1024x1024.ReducesTo [1] S32x1024x1024
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts₀]

class Facts : Prop extends Facts₀ where

variable [Facts]
-- ==== Proof.LossSum.lean ====
/-
  The mathematics of the binary-cross-entropy total, on the extended reals.

  One element's loss is  ℓ(p, t) = -( t · max(log p, c) + (1 - t) · max(log(1 + (-p)), c) )  with the clamp c = -100
  (kept as its bit pattern: the same word on both sides is never evaluated). The loss of a whole array is the
  sum of ℓ over its elements. Extended-real addition is a commutative monoid, so that sum may be taken in any
  order and any grouping: reduced along an axis first and then totalled (a fiberwise sum), through a reshape
  (a bijection of the index sets), or row block by row block. None of this needs finiteness of the inputs.
-/
import Idealize.ShloMosaic.PureOps.Ideal
import Idealize.ShloMosaic.PureOps.Ideal.Laws
import Idealize.ShloMosaic.Lib.ValueIdx

noncomputable section

namespace Cert.BceSum

open Idealize.ShloMosaic Idealize.ShloMosaic.ValueIdx

/-! ## The element's loss -/

/-- The pattern of `1.0` denotes the real `1`. -/
theorem ofBits_one : Ideal.ofBits .f32 0x3F800000#32 = 1 := by
  simp [Ideal.ofBits, Ideal.ieee, -EReal.coe_mul]; norm_num

/-- Dividing by the pattern of `1.0` changes nothing: `x · 1⁻¹ = x` on every extended real. -/
theorem div_ofBits_one (x : EReal) : Ideal.div x (Ideal.ofBits .f32 0x3F800000#32) = x := by
  rw [ofBits_one, ← EReal.coe_one, Ideal.div_coe one_ne_zero]
  simp

/-- One element's loss: `-(t · max(log p, c) + (1 - t) · max(log(1 + (-p)), c))`, the clamp `c` and the `1` as the
    patterns the programs spell. -/
def term (p t : EReal) : EReal :=
  -(t * max (Ideal.log p) (Ideal.ofBits .f32 0xC2C80000#32)
    + (Ideal.ofBits .f32 0x3F800000#32 - t) * max (Ideal.log1p (-p)) (Ideal.ofBits .f32 0xC2C80000#32))

/-- The same loss spelled with subtractions from the zero pattern where a negation stands: `0 - x = -x`. -/
theorem term_of_zero_sub (p t : EReal) :
    Ideal.ofBits .f32 0x00000000#32
      - (t * max (Ideal.log p) (Ideal.ofBits .f32 0xC2C80000#32)
        + (Ideal.ofBits .f32 0x3F800000#32 - t)
          * max (Ideal.log1p (Ideal.ofBits .f32 0x00000000#32 - p)) (Ideal.ofBits .f32 0xC2C80000#32))
      = term p t := by
  simp only [Ideal.ofBits_zero_f32, zero_sub, term]

/-- The loss of a whole [32, 1, 1024, 1024] array of predictions `p` against targets `t`: the sum of the elements' losses. -/
def total (p t : (⟨4, ![32, 1, 1024, 1024]⟩ : Shape).Idx → EReal) : EReal := ∑ i, term (p i) (t i)

/-! ## Sums that do not depend on how the index set is traversed -/

/-- A sum reduced along some axes and then totalled over what is left is the total: each element reduces to
    exactly one index. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the host's reduction started from `0`. -/
theorem sum_hostReduceAdd_zero {s t : Shape} {axes : List (Fin s.rank)} (h : s.ReducesTo axes t) (x : s.Idx → EReal) :
    ∑ j : t.Idx, Ideal.hostReduceAdd h x 0 j = ∑ i : s.Idx, x i := by
  unfold Ideal.hostReduceAdd
  simp only [zero_add]
  exact Finset.sum_fiberwise Finset.univ (fun i => h.drop i) x

/-- A reshape re-indexes by a bijection, so it keeps the total. -/
theorem sum_shapeCast {s t : Shape} (x : s.Idx → EReal) (h : s.ShapeCasts t) :
    ∑ j : t.Idx, shapeCast t x h j = ∑ i : s.Idx, x i :=
  Equiv.sum_comp (Shape.reshapeEquiv h) x

/-! ## The 32768 rows as 64 blocks of 512 -/

/-- Row `512·b + r` of the 32768, for block `b` of 64 and row `r` of 512 inside it. -/
abbrev blockRow (b : Fin 64) (r : Fin 512) : Fin 32768 := ⟨512 * b.val + r.val, by omega⟩

/-- A sum over the 32768 rows is the sum over the 64 blocks of the sums over each block's 512 rows. -/
theorem sum_rows_by_block (f : Fin 32768 → EReal) : ∑ a, f a = ∑ b : Fin 64, ∑ r : Fin 512, f (blockRow b r) := by
  rw [← Equiv.sum_comp (finProdFinEquiv (m := 64) (n := 512)) f, Fintype.sum_prod_type]
  refine Finset.sum_congr rfl fun b _ => Finset.sum_congr rfl fun r _ => congrArg f (Fin.ext ?_)
  show r.val + 512 * b.val = 512 * b.val + r.val
  omega

/-- The element of the [32768, 1024] array that sits at `y` inside row block `b`. -/
abbrev inBlock (b : Fin 64) (y : (⟨2, ![512, 1024]⟩ : Shape).Idx) : (⟨2, ![32768, 1024]⟩ : Shape).Idx :=
  ix2 (blockRow b ⟨(y 0).val, idx2_lt0 y⟩) (⟨(y 1).val, idx2_lt1 y⟩ : Fin 1024)

/-- So a total over the [32768, 1024] array is the sum over the 64 row blocks of each [512, 1024] block's total. -/
theorem sum_by_block (g : (⟨2, ![32768, 1024]⟩ : Shape).Idx → EReal) :
    ∑ i, g i = ∑ b : Fin 64, ∑ y : (⟨2, ![512, 1024]⟩ : Shape).Idx, g (inBlock b y) := by
  rw [sum_idx2, sum_rows_by_block]
  refine Finset.sum_congr rfl fun b _ => ?_
  rw [sum_idx2]

/-! ## The running total over the blocks -/

/-- Block `k`'s total for `k < 64`, and `0` past the last block (never used). -/
def addend (B : Fin 64 → EReal) (k : ℕ) : EReal := if h : k < 64 then B ⟨k, h⟩ else 0

/-- The blocks' totals summed over the first 64 naturals are their sum over the 64 blocks. -/
theorem sum_range_addend (B : Fin 64 → EReal) : ∑ k ∈ Finset.range 64, addend B k = ∑ b : Fin 64, B b := by
  rw [Finset.sum_range]
  exact Finset.sum_congr rfl fun b _ => by unfold addend; rw [dif_pos b.isLt]

end Cert.BceSum

end
-- ==== Proof.RefTotal.lean ====
/-
  The reference's result is the total loss.

  The reference computes every element's loss ℓ(p, t) over the [32, 1, 1024, 1024] arrays, sums it along the
  channel axis (of extent one) from 0, divides by 1.0 (the mean over one channel), and sums what is left from 0.
  Division by one is the identity on the extended reals, and an axis sum followed by the sum of what is left is the
  sum over every element, so its one result word is the total loss of the two argument arrays.
-/
import proofs.«142774_j67542655697315_1_alg».proof.Proof.Gen.ReferenceIdeal.Run
import proofs.«142774_j67542655697315_1_alg».proof.Proof.Gen.ReferenceIdeal.Read
import proofs.«142774_j67542655697315_1_alg».proof.Proof.LossSum

noncomputable section

namespace Cert.BceSum.Reference

open Idealize.ShloMosaic Idealize.ShloMosaic.TcCoe Idealize.SL.Sem
open Cert.ReferenceIdeal Cert.ReferenceIdeal.Gen Cert.ReferenceIdeal.Read Cert.BceSum

/-- What the reference negates and then sums is, element by element, the loss of that element. -/
theorem negated_eq (x0 x1 : (⟨S32x1x1024x1024, .f32⟩ : BufTy).Contents (Elt Ideal)) :
    val_main_v12 (F := Ideal) x0 x1 = fun i => term (x0 i) (x1 i) := by
  funext i
  rw [val_main_v12_apply, val_main_v11_apply, val_main_v7_apply, val_main_v10_apply, val_main_v2_apply, val_main_v9_apply,
    val_main_v6_apply, val_main_v0_apply, val_main_v1_apply, val_main_v8_apply, val_main_v4_apply, val_main_v5_apply,
    val_main_v3_apply, val_main_cst_apply, val_main_cst_1_apply, val_main_cst_0_apply]
  rfl

/-- The reference's result word: the total loss of its two argument arrays. -/
theorem result_eq (x0 x1 : (⟨S32x1x1024x1024, .f32⟩ : BufTy).Contents (Elt Ideal)) (i : S_.Idx) :
    val_main_v16 (F := Ideal) x0 x1 i = total x0 x1 := by
  rw [val_main_v16_apply, val_main_cst_4_apply]
  have hmean : ∀ j, val_main_v15 (F := Ideal) x0 x1 j
      = Ideal.hostReduceAdd reducesTo_S32x1x1024x1024_S32x1024x1024_d1 (fun i => term (x0 i) (x1 i)) 0 j := by
    intro j
    rw [val_main_v15_apply, val_main_v14_apply, val_main_cst_3_apply]
    simp only [Ideal.hostDivf_def, Ideal.ofBits_def]
    rw [div_ofBits_one]
    unfold val_main_v13
    rw [negated_eq]
    simp only [Host.reduceAdd, Ideal.hostReduceAdd_def]
    rw [val_main_cst_2_apply]
    simp only [Ideal.ofBits_def, Ideal.ofBits_zero_f32]
  simp only [hmean, Ideal.ofBits_def, Ideal.ofBits_zero_f32, zero_add]
  exact sum_hostReduceAdd_zero _ _

end Cert.BceSum.Reference

end
-- ==== Proof.BodyValue.lean ====
/-
  What one grid point's body leaves in the one-word accumulator.

  At the first point the body stores the zero block, reads it back and stores `0 + s`; at every later point it reads
  the accumulator `a` the point before left and stores `a + s`. Here `s` is the block total: the body computes each
  element's loss over its [512, 1024] blocks of predictions and targets, sums along the lanes, then along the rows.
  A lane sum followed by a row sum is the sum over the whole block, whatever the intermediate shapes.
-/
import proofs.«142774_j67542655697315_1_alg».proof.Proof.Gen.KernelIdeal.Frame
import proofs.«142774_j67542655697315_1_alg».proof.Proof.LossSum
import Idealize.ShloMosaic.Lib.Pipeline.Value
import Idealize.ShloMosaic.Lib.Tactic

noncomputable section

namespace Cert.BceSum.Body

open Idealize.ShloMosaic Idealize.ShloMosaic.TcCoe Idealize.SL.Sem
open Cert.KernelIdeal Cert.KernelIdeal.Gen Cert.BceSum

variable {F : FTy → Type} [FloatOps F]

theorem zero_offsets : (![0, 0] : Fin 2 → Nat) = fun _ => 0 := funext fun a => by fin_cases a <;> rfl

/-- A later point: the accumulator holding `a`, the body leaves the second store's value of the two blocks and `a`. -/
theorem later_leaves (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : ¬cond0_0 i) (x0 x1 : Vec F S512x1024 .f32) (a : Vec F S1x1 .f32) :
    out0_B_2 c i a1 h1 a2 h2 a3 h3 hc x0 x1 a = k0_pay2 x0 x1 a := by
  unfold out0_B_2
  rw [View.read_writes_eq_canon _ _ _ (cover0_B_2 c i a1 h1 a2 h2 a3 h3 hc x0 x1 a)]
  unfold kernelRun0_B
  dsimp only
  sl_unfold_words
  rw [View.canon_unit_zero zero_offsets]
  simp only [View.readAt_eq_ld, h1.read_unread, h2.read_unread, h3.read_unread, View.ld_unit_zero (S := S512x1024) zero_offsets,
    View.ld_unit_zero (S := S1x1) zero_offsets]

/-- The first point: the body leaves the second store's value of the two blocks and the zero block it stored first
    and read back. -/
theorem first_leaves (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : cond0_0 i) (x0 x1 : Vec F S512x1024 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread, View.ld_unit_zero (S := S512x1024) zero_offsets]

/-! ## The stores' values on the extended reals -/

/-- The zero block the first point stores holds `0`. -/
theorem zero_block_apply (y : S1x1.Idx) : k0_pay1 (F := Ideal) y = 0 :=
  Ideal.ofBits_zero_f32

/-- A lane sum, recast as a column, summed along the rows and recast as one word, is the sum over the whole block. -/
theorem lanes_then_rows (v : FVec Ideal S512x1024 .f32) (y : S1x1.Idx) :
    shapeCast S1x1 (multiReduction .add [0] S1
        (shapeCast S512x1 (multiReduction .add [1] S512 v 0x00000000#32 reduces_S512x1024_S512 (.inl rfl) rfl) shapeCasts_S512_S512x1)
        0x00000000#32 reduces_S512x1_S1 (.inl rfl) rfl) shapeCasts_S1_S1x1 y
      = ∑ i : S512x1024.Idx, v i := by
  refine (Ideal.multiReduction_add_total (φ := .f32) _ 0x00000000#32 reduces_S512x1_S1 (fun b => by fin_cases b; rfl) (.inl rfl) rfl
    (Shape.reshapeEquiv shapeCasts_S1_S1x1 y)).trans ?_
  refine (sum_shapeCast _ shapeCasts_S512_S512x1).trans ?_
  exact sum_reduceAdd reduces_S512x1024_S512 v

/-- The second store's value: the accumulator plus the total loss of the block. -/
theorem accumulated_apply (x0 x1 : FVec Ideal S512x1024 .f32) (a : FVec Ideal S1x1 .f32) (y : S1x1.Idx) :
    k0_pay2 (F := Ideal) x0 x1 a y = a y + ∑ i : S512x1024.Idx, term (x0 i) (x1 i) := by
  unfold k0_pay2
  dsimp only
  simp only [shapeCast_self]
  refine (congrArg (a y + ·) (lanes_then_rows _ y)).trans ?_
  exact congrArg (a y + ·) (Finset.sum_congr rfl fun i _ => term_of_zero_sub (x0 i) (x1 i))

end Cert.BceSum.Body

end
-- ==== Proof.GridTotal.lean ====
/-
  The kernel's result array is the total loss.

  The region finds the two arguments reshaped to [32768, 1024]; at grid point `b` the windows hold row block `b` of
  each (rows `512·b … 512·b + 511`). By the two cases of the body, after point `n` the one-word accumulator holds the
  sum of the block totals of points `0 … n` (induction on the point). It is written back after the last point only, so the
  result array holds the sum of all 64 block totals: the sum over the [32768, 1024] array taken block by block, and —
  the reshape being a bijection of the index sets — the total loss of the two argument arrays.
-/
import proofs.«142774_j67542655697315_1_alg».proof.Proof.BodyValue
import Idealize.ShloMosaic.Lib.StableHlo.Run

noncomputable section

namespace Cert.BceSum.Grid

open Idealize.ShloMosaic Idealize.ShloMosaic.TcCoe Idealize.SL.Sem
open Idealize.ShloMosaic.Pipeline (Dat)
open Cert.KernelIdeal Cert.KernelIdeal.Gen Cert.BceSum Cert.BceSum.Body

variable (m : (ℓ : Loc nD τ sig) → Buf (Elt Ideal) ℓ) (ρ : Dev nD → PrngReg)

/-! ## The arrays the region finds, and their row blocks -/

/-- The predictions and the targets as the region finds them: [32768, 1024] arrays. -/
abbrev preds (c : Dev nD) : FVec Ideal S32768x1024 .f32 := V m c main_v0
abbrev targs (c : Dev nD) : FVec Ideal S32768x1024 .f32 := V m c main_v1

/-- They are the two arguments, reshaped. -/
theorem preds_eq (c : Dev nD) :
    preds m c = shapeCast S32768x1024 (m ((c : Thread nD τ).loc main_arg0)) shapeCasts_S32x1x1024x1024_S32768x1024 := by
  show StableHlo.after hostOps0 (fun b => m (c, b)) (Proc.devRef .tc main_v0) = _
  after_results
  rfl
theorem targs_eq (c : Dev nD) :
    targs m c = shapeCast S32768x1024 (m ((c : Thread nD τ).loc main_arg1)) shapeCasts_S32x1x1024x1024_S32768x1024 := by
  show StableHlo.after hostOps0 (fun b => m (c, b)) (Proc.devRef .tc main_v1) = _
  after_results
  rfl

/-- Grid point `t` as one of the 64 row blocks. -/
abbrev blockOf (t : Fin cfg0.N) : Fin 64 := ⟨t.val, lt_of_lt_of_eq t.isLt N_0⟩

/-- The blocks the two input windows hold at point `t`. -/
abbrev predBlock (c : Dev nD) (t : Fin cfg0.N) : FVec Ideal S512x1024 .f32 := iblk m c 0 t
abbrev targBlock (c : Dev nD) (t : Fin cfg0.N) : FVec Ideal S512x1024 .f32 := iblk m c 1 t

/-- Both index maps send point `t` to block `(t, 0)`. -/
theorem index_pred : ∀ t : Fin cfg0.N, win0_0.index t 0 = t.val ∧ win0_0.index t 1 = 0 :=
  (by decide +kernel : ∀ t : Fin grid0.N, win0_0.index t 0 = t.val ∧ win0_0.index t 1 = 0)
theorem index_targ : ∀ t : Fin cfg0.N, win0_1.index t 0 = t.val ∧ win0_1.index t 1 = 0 :=
  (by decide +kernel : ∀ t : Fin grid0.N, win0_1.index t 0 = t.val ∧ win0_1.index t 1 = 0)

/-- Entry `y` of the block at point `t` is entry `(512·t + y₀, y₁)` of the array. -/
theorem predBlock_apply (c : Dev nD) (t : Fin cfg0.N) (y : S512x1024.Idx) :
    predBlock m c t y = preds m c (inBlock (blockOf t) y) := by
  show iblk m c 0 t y = _
  unfold iblk
  rw [View.read_apply]
  show V m c main_v0 _ = V m c main_v0 _
  congr 1
  funext a
  apply Fin.ext
  match a with
  | ⟨0, _⟩ => show win0_0.index t 0 * 512 + 1 * (y 0).val = 512 * t.val + (y 0).val; rw [(index_pred t).1]; omega
  | ⟨1, _⟩ => show win0_0.index t 1 * 1024 + 1 * (y 1).val = (y 1).val; rw [(index_pred t).2]; omega
theorem targBlock_apply (c : Dev nD) (t : Fin cfg0.N) (y : S512x1024.Idx) :
    targBlock m c t y = targs m c (inBlock (blockOf t) y) := by
  show iblk m c 1 t y = _
  unfold iblk
  rw [View.read_apply]
  show V m c main_v1 _ = V m c main_v1 _
  congr 1
  funext a
  apply Fin.ext
  match a with
  | ⟨0, _⟩ => show win0_1.index t 0 * 512 + 1 * (y 0).val = 512 * t.val + (y 0).val; rw [(index_targ t).1]; omega
  | ⟨1, _⟩ => show win0_1.index t 1 * 1024 + 1 * (y 1).val = (y 1).val; rw [(index_targ t).2]; omega

/-! ## The accumulator after each point -/

/-- The total loss of row block `b`. -/
def blockLoss (c : Dev nD) (b : Fin 64) : EReal :=
  ∑ y : S512x1024.Idx, term (preds m c (inBlock b y)) (targs m c (inBlock b y))

/-- What the body adds at point `t` is that block's total. -/
theorem block_total_at (c : Dev nD) (t : Fin cfg0.N) :
    ∑ y : S512x1024.Idx, term (predBlock m c t y) (targBlock m c t y) = addend (blockLoss m c) t.val := by
  unfold addend
  rw [dif_pos (lt_of_lt_of_eq t.isLt N_0)]
  exact Finset.sum_congr rfl fun y _ => by rw [predBlock_apply, targBlock_apply]

/-- After point `n` the accumulator holds the sum of the block totals of points `0 … n`. -/
theorem accumulator_after (c : Dev nD) : ∀ (n : ℕ) (h : n < cfg0.N),
    outsAt0 m c n h = fun _ => ∑ k ∈ Finset.range (n + 1), addend (blockLoss m c) k
  | 0, h => by
    refine (outsAt0_A m c ⟨0, h⟩ rfl).trans ?_
    refine (first_leaves (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (predBlock m c ⟨0, h⟩) (targBlock m c ⟨0, h⟩)).trans ?_
    funext y
    rw [accumulated_apply, zero_block_apply, zero_add, Finset.sum_range_one]
    exact block_total_at m c ⟨0, h⟩
  | n + 1, h => by
    have hN : cfg0.N = 64 := N_0
    have hlater : ¬(⟨n + 1, h⟩ : Fin cfg0.N).val % 64 = 0 := by dsimp only; omega
    refine (outsAt0_B m c ⟨n + 1, h⟩ hlater).trans ?_
    refine (later_leaves (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hc => hlater ((hcond0_0 ⟨n + 1, h⟩).mp hc))
      (predBlock m c ⟨n + 1, h⟩) (targBlock m c ⟨n + 1, h⟩) (outsAt0 m c n (Nat.lt_of_succ_lt h))).trans ?_
    funext y
    rw [accumulated_apply, accumulator_after c n (Nat.lt_of_succ_lt h), Finset.sum_range_succ _ (n + 1)]
    exact congrArg (_ + ·) (block_total_at m c ⟨n + 1, h⟩)

/-! ## All 64 blocks -/

/-- The 64 block totals add up to the total loss of the two argument arrays. -/
theorem all_blocks (c : Dev nD) :
    ∑ k ∈ Finset.range 64, addend (blockLoss m c) k
      = total (m ((c : Thread nD τ).loc main_arg0)) (m ((c : Thread nD τ).loc main_arg1)) := by
  rw [sum_range_addend]
  unfold blockLoss
  rw [← sum_by_block (fun i => term (preds m c i) (targs m c i)), preds_eq, targs_eq]
  exact Equiv.sum_comp (Shape.reshapeEquiv shapeCasts_S32x1x1024x1024_S32768x1024)
    (fun i => term (m ((c : Thread nD τ).loc main_arg0) i) (m ((c : Thread nD τ).loc main_arg1) i))

end Cert.BceSum.Grid

end
-- ==== Proof.KernelRun.lean ====
/-
  The kernel program's run, read: its scalar result is the total loss.

  The accumulator is written back once, after the last grid point, when it holds the sum of all 64 block totals; the
  result array has one word, which that write-back covers. The host line after the region reshapes the [1, 1] array to
  a scalar, which keeps its one word.
-/
import proofs.«142774_j67542655697315_1_alg».proof.Proof.GridTotal

noncomputable section

namespace Cert.BceSum.Grid

open Idealize.ShloMosaic Idealize.ShloMosaic.TcCoe Idealize.SL.Sem
open Idealize.ShloMosaic.Pipeline (Dat)
open Cert.KernelIdeal Cert.KernelIdeal.Gen Cert.BceSum Cert.BceSum.Body

variable (m : (ℓ : Loc nD τ sig) → Buf (Elt Ideal) ℓ) (ρ : Dev nD → PrngReg)

/-- The total loss of core `c`'s two argument arrays. -/
abbrev loss (c : Dev nD) : EReal := total (m ((c : Thread nD τ).loc main_arg0)) (m ((c : Thread nD τ).loc main_arg1))

/-- The last of the 64 grid points. -/
abbrev lastPoint : Fin cfg0.N := ⟨63, by decide⟩

/-- The one write-back, after the last point, writes the total loss: the accumulator then holds all 64 block totals. -/
theorem written_back (c : Dev nD) (t : Fin cfg0.N) (hf : (cfg0.win 2).flush t = true) :
    (dats m 0 c).flushed 2 t = ((cfg0.win 2).blk t).view.read (Elt Ideal) (fun _ => loss m c) := by
  have hN : cfg0.N = 64 := N_0
  have hlast : t.val + 1 = 64 := by have := (flush0_2 t).mp hf; have := t.isLt; omega
  show (cfg0.win 2).cut (grid0.coords t) ((dats m 0 c).after 2 t) = _
  rw [after0_2, accumulator_after, hlast, all_blocks]
  rfl

/-- The result window's block is the whole one-word array at every point. -/
theorem result_block : ∀ (t : Fin cfg0.N) (a : Fin 2), win0_2.index t a * win0_2.size a = 0 ∧ win0_2.xsize (grid0.coords t) a = 1 :=
  (by decide +kernel : ∀ (t : Fin grid0.N) (a : Fin 2), win0_2.index t a * win0_2.size a = 0 ∧ win0_2.xsize (grid0.coords t) a = 1)

/-- So the result array ends holding the total loss in its one word. -/
theorem result_array (c : Dev nD) : (dats m 0 c).arrAt 2 cfg0.N = fun _ => loss m c :=
  (dats m 0 c).arrAt_eq_of_cover 2 (fun _ => loss m c) (written_back m c) fun i =>
    ⟨lastPoint, (flush0_2 lastPoint).mpr rfl, by
      show i ∈ ((View.whole main_v2).slice (win0_2.rect lastPoint)).set
      rw [View.set_slice_whole, Rect.mem_set_unit]
      intro a
      obtain ⟨hoff, hsz⟩ := result_block lastPoint a
      show win0_2.index lastPoint a * win0_2.size a ≤ (i a : ℕ)
        ∧ (i a : ℕ) < win0_2.index lastPoint a * win0_2.size a + win0_2.xsize (grid0.coords lastPoint) a
      rw [hoff, hsz]
      have hone : (i a : ℕ) < 1 := by
        match a with
        | ⟨0, _⟩ => exact (i 0).isLt
        | ⟨1, _⟩ => exact (i 1).isLt
      omega⟩

/-- The host line after the region reshapes that one word to the scalar result. -/
theorem result_scalar (c : Dev nD) :
    Pipeline.afterTail₀ cfgs (dats m) 0 (V0 m) [hostOps1] c main_v3 = fun _ => loss m c := by
  unfold Pipeline.afterTail₀
  show StableHlo.after hostOps1 _ (Proc.devRef .tc main_v3) = _
  after_results
  have hword : Pipeline.withArrays (cfgs 0).spec c (V0 m c) (fun w => (dats m 0 c).arrAt w (cfgs 0).N) (Proc.devRef .tc main_v2)
      = fun _ => loss m c :=
    (Pipeline.withArrays_arr spec0 launch0.win.arr_inj c _ _ 2).trans (result_array m c)
  rw [hword]
  rfl

/-- The run, read: every weakly fair execution of the idealized kernel program terminates with its scalar result at the
    total loss of the two argument arrays, and the arguments unchanged. -/
theorem run : θ_run defs (onTc (τ := τ) (main (F := Ideal))) ⟨m, fun _ => 0, ρ⟩ fun r => ∀ c : Dev nD,
      r.2.mem ((c : Thread nD τ).loc main_v3) = (fun _ => loss m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (result_scalar m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.BceSum.Grid

end
-- ==== Proof.lean ====
/-
  A binary-cross-entropy loss summed over a [32, 1, 1024, 1024] array, by a kernel that accumulates over a grid,
  against its jnp reference — equal on the extended reals.

  Both programs compute, for every element, the loss
      ℓ(p, t) = -( t · max(log p, -100) + (1 - t) · max(log(1 + (-p)), -100) )
  of a prediction p against a target t (the kernel writes the two negations as subtractions from zero, which is the
  same extended real), and add the losses up.
    The reference sums along the channel axis, of extent one, divides by 1.0 (the mean over that axis: the identity), and
  sums what is left. The kernel reshapes both arrays to [32768, 1024], walks the 64 row blocks of 512 rows, sums each
  block's losses along the lanes and then along the rows, and adds the block total into a one-word accumulator that is
  zeroed at the first block and written back after the last; a final reshape makes the word a scalar.
    Addition on the extended reals is commutative and associative, so the order and grouping of a finite sum do not
  matter: a sum along some axes followed by the sum of what is left is the sum over all elements (each element lies over
  exactly one reduced index), a reshape re-indexes by a bijection, and the 32768 rows are the disjoint union of the 64
  blocks. Both results are therefore the one sum Σ ℓ(p, t) over all elements. No step uses that the inputs are finite.
    The three frames are the generated frame certificates and the reference's generated run; the idealization rewrote
  nothing, so `preserves` is `True`.
-/
import proofs.«142774_j67542655697315_1_alg».proof.Defs
import proofs.«142774_j67542655697315_1_alg».proof.Proof.Gen.Kernel
import proofs.«142774_j67542655697315_1_alg».proof.Proof.Gen.Kernel.Frame
import proofs.«142774_j67542655697315_1_alg».proof.Proof.Gen.KernelIdeal
import proofs.«142774_j67542655697315_1_alg».proof.Proof.Gen.KernelIdeal.Frame
import proofs.«142774_j67542655697315_1_alg».proof.Proof.Gen.ReferenceIdeal
import proofs.«142774_j67542655697315_1_alg».proof.Proof.Gen.ReferenceIdeal.Run
import proofs.«142774_j67542655697315_1_alg».proof.Proof.Gen.Pre_finite_inputs
import proofs.«142774_j67542655697315_1_alg».proof.Proof.RefTotal
import proofs.«142774_j67542655697315_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's scalar and the reference's scalar are both the total
    loss of those arguments. -/
theorem algebraic : Cert.algebraic_KernelIdeal_ReferenceIdeal := by
  intro m ρ m' ρ' _ hagree
  refine ⟨fun c _ => Cert.BceSum.Grid.loss m c, Cert.BceSum.Grid.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  exact (congrFun (Cert.ReferenceIdeal.Read.val_main_v16_eq _ _) i).trans (Cert.BceSum.Reference.result_eq _ _ i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
